-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x2048 : Shape := ⟨3, ![8, 2048, 2048]⟩
abbrev S2048x2048 : Shape := ⟨2, ![2048, 2048]⟩
abbrev S2048 : Shape := ⟨1, ![2048]⟩
abbrev S2048x16 : Shape := ⟨2, ![2048, 16]⟩
abbrev S16x2048 : Shape := ⟨2, ![16, 2048]⟩
abbrev S_ : Shape := ⟨0, ![]⟩

class Facts : Prop where
  bcast_S_S8x2048x2048 : S_.BroadcastsInDim S8x2048x2048 (![] : Fin 0 → Fin S8x2048x2048.rank)
  reducesTo_S8x2048x2048_S_d0_1_2 : S8x2048x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S2048x16 : S_.BroadcastsInDim S2048x16 (![] : Fin 0 → Fin S2048x16.rank)
  reducesTo_S2048x16_S_d0_1 : S2048x16.ReducesTo [0, 1] S_
  bcast_S_S16x2048 : S_.BroadcastsInDim S16x2048 (![] : Fin 0 → Fin S16x2048.rank)
  reducesTo_S16x2048_S_d0_1 : S16x2048.ReducesTo [0, 1] S_

variable [Facts]

def fn_part1 {F : FTy → Type} [FloatOps F] (main_arg4 : FVec F S16x2048 .f32) (main_v13 : IVec S_ 1) (main_v16 : IVec S2048x16 1) : IVec S_ 1 :=
  let main_c_5 : IVec S_ 1 := constantI S_ 1 1#1
  let main_v17 : IVec S_ 1 := (fun x v => Host.reduce IntOp.andi x v reducesTo_S2048x16_S_d0_1 h_S_) main_v16 main_c_5
  let main_v18 : IVec S_ 1 := andi main_v13 main_v17
  let main_v19 : FVec F S16x2048 .f32 := Host.absf main_arg4
  let main_cst_6 : FVec F S_ .f32 := constant S_ .f32 0x7F800000#32
  let main_v20 : FVec F S16x2048 .f32 := broadcastInDim S16x2048 ![] bcast_S_S16x2048 main_cst_6
  let main_v21 : IVec S16x2048 1 := cmpf .olt main_v19 main_v20
  let main_c_7 : IVec S_ 1 := constantI S_ 1 1#1
  let main_v22 : IVec S_ 1 := (fun x v => Host.reduce IntOp.andi x v reducesTo_S16x2048_S_d0_1 h_S_) main_v21 main_c_7
  let main_v23 : IVec S_ 1 := andi main_v18 main_v22
  main_v23

def fn {F : FTy → Type} [FloatOps F] (main_arg0 : FVec F S8x2048x2048 .f32) (main_arg1 : FVec F S2048x2048 .f32) (main_arg2 : FVec F S2048 .f32) (main_arg3 : FVec F S2048x16 .f32) (main_arg4 : FVec F S16x2048 .f32) : IVec S_ 1 :=
  let main_v0 : FVec F S8x2048x2048 .f32 := Host.absf main_arg0
  let main_cst : FVec F S_ .f32 := constant S_ .f32 0x7F800000#32
  let main_v1 : FVec F S8x2048x2048 .f32 := broadcastInDim S8x2048x2048 ![] bcast_S_S8x2048x2048 main_cst
  let main_v2 : IVec S8x2048x2048 1 := cmpf .olt main_v0 main_v1
  let main_c : IVec S_ 1 := constantI S_ 1 1#1
  let main_v3 : IVec S_ 1 := (fun x v => Host.reduce IntOp.andi x v reducesTo_S8x2048x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x16 .f32 := Host.absf main_arg3
  let main_cst_4 : FVec F S_ .f32 := constant S_ .f32 0x7F800000#32
  let main_v15 : FVec F S2048x16 .f32 := broadcastInDim S2048x16 ![] bcast_S_S2048x16 main_cst_4
  let main_v16 : IVec S2048x16 1 := cmpf .olt main_v14 main_v15
  fn_part1 (F := F) main_arg4 main_v13 main_v16
-- ==== Kernel.lean ====
abbrev S8x2048x2048 : Shape := ⟨3, ![8, 2048, 2048]⟩
abbrev S2048x2048 : Shape := ⟨2, ![2048, 2048]⟩
abbrev S2048 : Shape := ⟨1, ![2048]⟩
abbrev S2048x16 : Shape := ⟨2, ![2048, 16]⟩
abbrev S16x2048 : Shape := ⟨2, ![16, 2048]⟩
abbrev S_ : Shape := ⟨0, ![]⟩
abbrev S1x2048 : Shape := ⟨2, ![1, 2048]⟩
abbrev S16384x2048 : Shape := ⟨2, ![16384, 2048]⟩
abbrev S512x2048 : Shape := ⟨2, ![512, 2048]⟩

abbrev nBuf : Space → Nat
  | .hbm => 25
  | .vmem => 6
  | .smem => 0
  | _ => 0

abbrev bufTy : (tb : Table) → Fin (tcTables nBuf tb) → BufTy
  | .hbm, ⟨0, _⟩ => ⟨S8x2048x2048, .f32⟩
  | .hbm, ⟨1, _⟩ => ⟨S2048x2048, .f32⟩
  | .hbm, ⟨2, _⟩ => ⟨S2048, .f32⟩
  | .hbm, ⟨3, _⟩ => ⟨S2048x16, .f32⟩
  | .hbm, ⟨4, _⟩ => ⟨S16x2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048, .f32⟩
  | .hbm, ⟨14, _⟩ => ⟨S2048, .f32⟩
  | .hbm, ⟨15, _⟩ => ⟨S2048, .f32⟩
  | .hbm, ⟨16, _⟩ => ⟨S1x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .bf16⟩
  | .hbm, ⟨21, _⟩ => ⟨S1x2048, .f32⟩
  | .hbm, ⟨22, _⟩ => ⟨S16384x2048, .f32⟩
  | .hbm, ⟨23, _⟩ => ⟨S16384x2048, .f32⟩
  | .hbm, ⟨24, _⟩ => ⟨S8x2048x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S2048x2048_S2048_d0 : S2048x2048.ReducesTo [0] S2048
  h_S_ : 0 < S_.numel
  bcast_S2048_S1x2048_1 : S2048.BroadcastsInDim S1x2048 (![1] : Fin 1 → Fin S1x2048.rank)
  bcast_S1x2048_S2048x2048_0_1 : S1x2048.BroadcastsInDim S2048x2048 (![0, 1] : Fin 2 → Fin S2048x2048.rank)
  transposes_S2048x2048_S2048x2048_1_0 : S2048x2048.Transposes [1, 0] S2048x2048
  bitsLt_bf16_f32 : FTy.bits .bf16 < FTy.bits .f32
  shapeCasts_S2048_S1x2048 : S2048.ShapeCasts S1x2048
  shapeCasts_S8x2048x2048_S16384x2048 : S8x2048x2048.ShapeCasts S16384x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  shapeCasts_S16384x2048_S8x2048x2048 : S16384x2048.ShapeCasts S8x2048x2048
  dot_S2048x16_S16x2048_S2048x2048_1_0_0_1_n_n_wf : DotDims.WF S2048x16 S16x2048 S2048x2048 [1] [0] [0] [1] [] []
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S16384x2048.size a
  hwx0_3 : ∀ i : grid0.Coords, EltTy.bits .f32 = 32 ∨ (Rect.block (s := S16384x2048) S512x2048.size (cc0_transform_3 i) (hinb0_3 i)).WholeWords (EltTy.packing .f32)

variable [Facts₀]

def dot_S2048x16_S16x2048_S2048x2048_1_0_0_1_n_n : DotDims S2048x16 S16x2048 S2048x2048 where
  lhsContracting := [1]
  rhsContracting := [0]
  lhsNonContracting := [0]
  rhsNonContracting := [1]
  lhsBatch := []
  rhsBatch := []
  wf := dot_S2048x16_S16x2048_S2048x2048_1_0_0_1_n_n_wf
def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_v15) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x2048 : Shape := ⟨3, ![8, 2048, 2048]⟩
abbrev S2048x2048 : Shape := ⟨2, ![2048, 2048]⟩
abbrev S2048 : Shape := ⟨1, ![2048]⟩
abbrev S2048x16 : Shape := ⟨2, ![2048, 16]⟩
abbrev S16x2048 : Shape := ⟨2, ![16, 2048]⟩
abbrev S_ : Shape := ⟨0, ![]⟩
abbrev S1x2048 : Shape := ⟨2, ![1, 2048]⟩
abbrev S1x1x2048 : Shape := ⟨3, ![1, 1, 2048]⟩

abbrev nBuf : Space → Nat
  | .hbm => 23
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048x2048, .f32⟩
  | .hbm, ⟨2, _⟩ => ⟨S2048, .f32⟩
  | .hbm, ⟨3, _⟩ => ⟨S2048x16, .f32⟩
  | .hbm, ⟨4, _⟩ => ⟨S16x2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048, .f32⟩
  | .hbm, ⟨14, _⟩ => ⟨S2048, .f32⟩
  | .hbm, ⟨15, _⟩ => ⟨S2048, .f32⟩
  | .hbm, ⟨16, _⟩ => ⟨S1x2048, .f32⟩
  | .hbm, ⟨17, _⟩ => ⟨S2048x2048, .f32⟩
  | .hbm, ⟨18, _⟩ => ⟨S2048x2048, .f32⟩
  | .hbm, ⟨19, _⟩ => ⟨S8x2048x2048, .f32⟩
  | .hbm, ⟨20, _⟩ => ⟨S1x1x2048, .f32⟩
  | .hbm, ⟨21, _⟩ => ⟨S8x2048x2048, .f32⟩
  | .hbm, ⟨22, _⟩ => ⟨S8x2048x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  reducesTo_S2048x2048_S2048_d0 : S2048x2048.ReducesTo [0] S2048
  h_S_ : 0 < S_.numel
  bcast_S2048_S1x2048_1 : S2048.BroadcastsInDim S1x2048 (![1] : Fin 1 → Fin S1x2048.rank)
  bcast_S1x2048_S2048x2048_0_1 : S1x2048.BroadcastsInDim S2048x2048 (![0, 1] : Fin 2 → Fin S2048x2048.rank)
  bcast_S2048_S1x1x2048_2 : S2048.BroadcastsInDim S1x1x2048 (![2] : Fin 1 → Fin S1x1x2048.rank)
  bcast_S1x1x2048_S8x2048x2048_0_1_2 : S1x1x2048.BroadcastsInDim S8x2048x2048 (![0, 1, 2] : Fin 3 → Fin S8x2048x2048.rank)
  dot_S2048x16_S16x2048_S2048x2048_1_0_0_1_n_n_wf : DotDims.WF S2048x16 S16x2048 S2048x2048 [1] [0] [0] [1] [] []
  dot_S8x2048x2048_S2048x2048_S8x2048x2048_2_1_01_0_n_n_wf : DotDims.WF S8x2048x2048 S2048x2048 S8x2048x2048 [2] [1] [0, 1] [0] [] []

variable [Facts₀]

def dot_S2048x16_S16x2048_S2048x2048_1_0_0_1_n_n : DotDims S2048x16 S16x2048 S2048x2048 where
  lhsContracting := [1]
  rhsContracting := [0]
  lhsNonContracting := [0]
  rhsNonContracting := [1]
  lhsBatch := []
  rhsBatch := []
  wf := dot_S2048x16_S16x2048_S2048x2048_1_0_0_1_n_n_wf
def dot_S8x2048x2048_S2048x2048_S8x2048x2048_2_1_01_0_n_n : DotDims S8x2048x2048 S2048x2048 S8x2048x2048 where
  lhsContracting := [2]
  rhsContracting := [1]
  lhsNonContracting := [0, 1]
  rhsNonContracting := [0]
  lhsBatch := []
  rhsBatch := []
  wf := dot_S8x2048x2048_S2048x2048_S8x2048x2048_2_1_01_0_n_n_wf

class Facts : Prop extends Facts₀ where

variable [Facts]
-- ==== Proof.LibDot.lean ====
/-
  A plain matrix product read at an entry.

  For dimension numbers that contract axis 1 of an `M × K` left operand with axis 0 of a `K × N` right operand and
  have no batch axes, the contraction index is one coordinate `k : Fin K`, the left operand is read at `(a, k)` and the
  right operand at `(k, b)`: the sum over the contraction index is `∑ k : Fin K`. At the ideal instance this reads a
  kernel's matrix product into a zero accumulator, and a host program's `dot_general`, at entry `(a, b)`.
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-- The sum over the contraction index of a plain `M × K` by `K × N` product, as a sum over `Fin K`. -/
theorem plain_sum {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    {α : Type} [AddCommMonoid α] (f : (⟨2, ![M, K]⟩ : Shape).Idx → (⟨2, ![K, N]⟩ : Shape).Idx → α) (a : Fin M) (b : Fin N) :
    ∑ k : d.contr.Idx, f (d.lhsIdx (ix2 a b) k) (d.rhsIdx (ix2 a b) k) = ∑ k : Fin K, f (ix2 a k) (ix2 k b) := by
  obtain ⟨lc, rc, ln, rn, lb, rb, wf⟩ := d
  dsimp only at h1 h2 h3 h4 h5 h6
  subst h1 h2 h3 h4 h5 h6
  have hr : (DotDims.mk [1] [0] [0] [1] [] [] wf : DotDims ⟨2, ![M, K]⟩ ⟨2, ![K, N]⟩ ⟨2, ![M, N]⟩).contr.rank = 1 := rfl
  have hs : (DotDims.mk [1] [0] [0] [1] [] [] wf : DotDims ⟨2, ![M, K]⟩ ⟨2, ![K, N]⟩ ⟨2, ![M, N]⟩).contr.size ⟨0, by omega⟩ = K := rfl
  rw [← Equiv.sum_comp (contrEquiv1 _ K hr hs).symm]
  refine Finset.sum_congr rfl fun k _ => ?_
  congr 1
  · funext c
    match c with
    | ⟨0, _⟩ => exact Fin.ext rfl
    | ⟨1, _⟩ => exact Fin.ext rfl
  · funext c
    match c with
    | ⟨0, _⟩ => exact Fin.ext rfl
    | ⟨1, _⟩ => exact Fin.ext rfl

/-- A kernel's matrix product into the zero accumulator, at the ideal instance, at entry `(a, b)`. -/
theorem matmul_zero_apply {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) {φ₁ φ₂ : FTy}
    (prec : Option ContractPrecision) (l : FVec Ideal ⟨2, ![M, K]⟩ φ₁) (r : FVec Ideal ⟨2, ![K, N]⟩ φ₂) (a : Fin M) (b : Fin N) :
    matmul d prec l r (constant ⟨2, ![M, N]⟩ .f32 0x00000000#32) (ix2 a b) = ∑ k : Fin K, l (ix2 a k) * r (ix2 k b) := by
  show FloatOps.matmul d prec l r (constant ⟨2, ![M, N]⟩ .f32 0x00000000#32) (ix2 a b) = _
  rw [Ideal.matmul_constant_zero_apply]
  exact plain_sum d h1 h2 h3 h4 h5 h6 (fun i j => l i * r j) a b

/-- A host program's `dot_general`, at the ideal instance, at entry `(a, b)`. -/
theorem dotGeneral_apply {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) {φ₁ φ₂ : FTy}
    (prec : Option ContractPrecision) (l : FVec Ideal ⟨2, ![M, K]⟩ φ₁) (r : FVec Ideal ⟨2, ![K, N]⟩ φ₂) (a : Fin M) (b : Fin N) :
    Host.dotGeneral d prec l r (ix2 a b) = ∑ k : Fin K, l (ix2 a k) * r (ix2 k b) := by
  show FloatOps.dotGeneral d prec .single l r (ix2 a b) = _
  rw [Ideal.dotGeneral_apply]
  exact plain_sum d h1 h2 h3 h4 h5 h6 (fun i j => l i * r j) a b

end Cert.LibDot

end
-- ==== Proof.Body.lean ====
/-
  One tile of the kernel's body, read at an entry.

  The body loads a `512 × 2048` tile of rows, the whole `2048 × 2048` matrix and the `1 × 2048` bias row, multiplies
  the tile by the matrix into a zero accumulator and adds the bias row to every row of the product. Changes of float
  format are the identity on the extended reals and the shape casts are casts to the same shape, so at entry `(p, q)`
  of the tile the stored value is `∑ k, tile[p, k] · matrix[k, q] + bias[0, q]`.
-/
import proofs.«138356_j31456340476487_1_alg».proof.Proof.Gen.KernelIdeal.Skeleton
import proofs.«138356_j31456340476487_1_alg».proof.Proof.LibDot
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- The bias row broadcast down the tile's rows, at `(p, q)`, is the row's entry `q`. -/
theorem bias_rows (v : FVec Ideal S1x2048 .f32) (p : Fin 512) (q : Fin 2048) :
    broadcastTo S512x2048 v Facts₀.broadcasts_S1x2048_S512x2048 (ix2 p q) = v (ix2 0 q) :=
  broadcastTo_apply v _ (ix2 p q) (ix2 0 q) (fun a => match a with
    | ⟨0, _⟩ => by show 0 = if (1 : Nat) = 1 then 0 else _; rw [if_pos rfl]
    | ⟨1, _⟩ => by show q.val = if (2048 : Nat) = 1 then 0 else q.val; rw [if_neg (by decide)])

/-- The value the body stores, at entry `(p, q)` of the tile. -/
theorem tile_entry (x0 : FVec Ideal S512x2048 .f32) (x1 : FVec Ideal S2048x2048 .bf16) (x2 : FVec Ideal S1x2048 .f32)
    (p : Fin 512) (q : Fin 2048) :
    k0_pay1 (F := Ideal) x0 x1 x2 (ix2 p q) = (∑ k : Fin 2048, x0 (ix2 p k) * x1 (ix2 k q)) + x2 (ix2 0 q) := by
  unfold k0_pay1
  simp only [shapeCast_self]
  rw [addf_apply, bias_rows,
    Cert.LibDot.matmul_zero_apply dot_S512x2048_S2048x2048_S512x2048_1_0_0_1_n_n rfl rfl rfl rfl rfl rfl]
  rfl

end Cert.KernelIdeal.Body

end
-- ==== Proof.Blocks.lean ====
/-
  The region's output array after the run.

  The region walks the flattened rows in 32 tiles of 512 rows. At each tile it holds the whole matrix and the whole
  bias row, and writes back the tile of `rows · matrix + bias row`. Every tile is therefore a block of ONE function of the
  three staged arrays, `flat X M B (r, o) = ∑ k, X[r, k] · M[k, o] + B[0, o]`: row `p` of tile `t` is row `512·t + p` of
  the array. The tiles cover all `16384` rows (row `r` lies in tile `r / 512`), so the array ends holding `flat`.
-/
import proofs.«138356_j31456340476487_1_alg».proof.Proof.Gen.KernelIdeal.Frame
import proofs.«138356_j31456340476487_1_alg».proof.Proof.Body
import Idealize.ShloMosaic.Lib.Pipeline.Value
import Idealize.ShloMosaic.Lib.ValueIdx
import Idealize.ShloMosaic.PureOps.Ideal

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

/-- Flat rows times a matrix, plus a bias row added to every row. -/
def flat (X : FVec Ideal S16384x2048 .f32) (M : FVec Ideal S2048x2048 .bf16) (B : FVec Ideal S1x2048 .f32) :
    FVec Ideal S16384x2048 .f32 :=
  fun i => (∑ k : Fin 2048, X (ix2 (i 0) k) * M (ix2 k (i 1))) + B (ix2 0 (i 1))

theorem flat_apply (X : FVec Ideal S16384x2048 .f32) (M : FVec Ideal S2048x2048 .bf16) (B : FVec Ideal S1x2048 .f32)
    (r : Fin 16384) (o : Fin 2048) :
    flat X M B (ix2 r o) = (∑ k : Fin 2048, X (ix2 r k) * M (ix2 k o)) + B (ix2 0 o) := rfl

/-- A tile whose rows are rows of `X`, multiplied by `M` with `B` added, is `flat X M B` at the matching array index:
    stated with the three loaded blocks as variables, their agreement with the arrays as hypotheses. -/
theorem tile_of_flat (X : FVec Ideal S16384x2048 .f32) (M : FVec Ideal S2048x2048 .bf16) (B : FVec Ideal S1x2048 .f32)
    (x0 : FVec Ideal S512x2048 .f32) (x1 : FVec Ideal S2048x2048 .bf16) (x2 : FVec Ideal S1x2048 .f32)
    (y : S512x2048.Idx) (i : S16384x2048.Idx)
    (h0 : ∀ k : Fin 2048, x0 (ix2 (y 0) k) = X (ix2 (i 0) k))
    (h1 : ∀ k : Fin 2048, x1 (ix2 k (y 1)) = M (ix2 k (i 1)))
    (h2 : x2 (ix2 0 (y 1)) = B (ix2 0 (i 1))) :
    k0_pay1 (F := Ideal) x0 x1 x2 y = flat X M B i := by
  refine ((congrArg (k0_pay1 (F := Ideal) x0 x1 x2) (eq_ix2 y)).trans (Body.tile_entry x0 x1 x2 (y 0) (y 1))).trans ?_
  unfold flat
  simp only [h0, h1, h2]

variable (m : (ℓ : Loc nD τ sig) → Buf (Elt Ideal) ℓ) (ρ : Dev nD → PrngReg)

theorem zero_offsets : (![0, 0] : Fin 2 → Nat) = fun _ => 0 := funext fun a => by fin_cases a <;> rfl

/-- Where each window's block sits at point `t`, decided over the 32 points: the rows' tile and the output's tile are
    tile `t`, and the matrix and the bias row are always their one whole block. -/
theorem tile_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of `flat` of the three staged arrays. -/
theorem written_tile (c : Dev nD) (t : Fin cfg0.N) :
    (dats m 0 c).flushed 3 t
      = ((cfg0.win 3).blk t).view.read (Elt Ideal) (flat (V m c main_v15) (V m c main_v13) (V m c main_v14)) := by
  show (cfg0.win 3).cut (grid0.coords t) ((dats m 0 c).after 3 t) = _
  rw [after0_3]
  unfold out0_3
  rw [View.canon_unit_zero zero_offsets]
  simp only [View.ld_unit_zero (S := S512x2048) zero_offsets, View.ld_unit_zero (S := S2048x2048) zero_offsets,
    View.ld_unit_zero (S := S1x2048) zero_offsets]
  obtain ⟨e00, e01, e10, e11, e20, e21, e30, e31⟩ := tile_indices t
  funext j
  show k0_pay1 (F := Ideal) (iblk m c 0 t) (iblk m c 1 t) (iblk m c 2 t) j
    = flat (V m c main_v15) (V m c main_v13) (V m c main_v14) (((cfg0.win 3).blk t).view.emb j)
  refine tile_of_flat (V m c main_v15) (V m c main_v13) (V m c main_v14) (iblk m c 0 t) (iblk m c 1 t) (iblk m c 2 t) j
    (((cfg0.win 3).blk t).view.emb j) (fun k => ?_) (fun k => ?_) ?_
  · show V m c main_v15 (((cfg0.win 0).blk t).view.emb (ix2 (j 0) k))
      = V m c main_v15 (ix2 ((((cfg0.win 3).blk t).view.emb j) 0) k)
    refine congrArg (V m c main_v15) (funext fun a => Fin.ext ?_)
    match a with
    | ⟨0, _⟩ =>
      show win0_0.index t (0 : Fin 2) * 512 + 1 * (j 0).val = win0_3.index t (0 : Fin 2) * 512 + 1 * (j 0).val
      omega
    | ⟨1, _⟩ =>
      show win0_0.index t (1 : Fin 2) * 2048 + 1 * k.val = k.val
      omega
  · show V m c main_v13 (((cfg0.win 1).blk t).view.emb (ix2 k (j 1)))
      = V m c main_v13 (ix2 k ((((cfg0.win 3).blk t).view.emb j) 1))
    refine congrArg (V m c main_v13) (funext fun a => Fin.ext ?_)
    match a with
    | ⟨0, _⟩ =>
      show win0_1.index t (0 : Fin 2) * 2048 + 1 * k.val = k.val
      omega
    | ⟨1, _⟩ =>
      show win0_1.index t (1 : Fin 2) * 2048 + 1 * (j 1).val = win0_3.index t (1 : Fin 2) * 2048 + 1 * (j 1).val
      omega
  · show V m c main_v14 (((cfg0.win 2).blk t).view.emb (ix2 0 (j 1)))
      = V m c main_v14 (ix2 0 ((((cfg0.win 3).blk t).view.emb j) 1))
    refine congrArg (V m c main_v14) (funext fun a => Fin.ext ?_)
    match a with
    | ⟨0, _⟩ =>
      show win0_2.index t (0 : Fin 2) * 1 + 1 * 0 = 0
      omega
    | ⟨1, _⟩ =>
      show win0_2.index t (1 : Fin 2) * 2048 + 1 * (j 1).val = win0_3.index t (1 : Fin 2) * 2048 + 1 * (j 1).val
      omega

/-- An index of the output array is in point `t`'s block iff each coordinate is in the block's range on its axis. -/
theorem mem_tile (t : Fin cfg0.N) (i : S16384x2048.Idx) :
    i ∈ ((cfg0.win 3).blk t).view.set
      ↔ ∀ a : Fin 2, win0_3.index t a * S512x2048.size a ≤ (i a).val
          ∧ (i a).val < win0_3.index t a * S512x2048.size a + S512x2048.size a := by
  show i ∈ ((View.whole main_v16).slice (win0_3.rect t)).set ↔ _
  rw [View.set_slice_whole, Rect.mem_set_unit]
  exact Iff.rfl

/-- Every row of the output array lies in some point's tile: row `r` in tile `r / 512`. -/
theorem tiles_cover (i : S16384x2048.Idx) :
    ∃ t : Fin cfg0.N, (cfg0.win 3).flush t = true ∧ i ∈ ((cfg0.win 3).blk t).view.set := by
  have hi0 : (i 0).val < 16384 := (i 0).isLt
  have hi1 : (i 1).val < 2048 := (i 1).isLt
  have hN : cfg0.N = 32 := N_0
  have hlt : (i 0).val / 512 < cfg0.N := by rw [hN]; omega
  obtain ⟨-, -, -, -, -, -, e30, e31⟩ := tile_indices ⟨(i 0).val / 512, hlt⟩
  refine ⟨⟨(i 0).val / 512, hlt⟩, flush0_3 _, ?_⟩
  rw [mem_tile]
  intro a
  match a with
  | ⟨0, _⟩ =>
    show win0_3.index ⟨(i 0).val / 512, hlt⟩ (0 : Fin 2) * 512 ≤ (i 0).val
      ∧ (i 0).val < win0_3.index ⟨(i 0).val / 512, hlt⟩ (0 : Fin 2) * 512 + 512
    rw [e30]
    show (i 0).val / 512 * 512 ≤ (i 0).val ∧ (i 0).val < (i 0).val / 512 * 512 + 512
    omega
  | ⟨1, _⟩ =>
    show win0_3.index ⟨(i 0).val / 512, hlt⟩ (1 : Fin 2) * 2048 ≤ (i 1).val
      ∧ (i 1).val < win0_3.index ⟨(i 0).val / 512, hlt⟩ (1 : Fin 2) * 2048 + 2048
    rw [e31]
    omega

/-- The output array after the run is `flat` of the three staged arrays. -/
theorem output_array (c : Dev nD) :
    (dats m 0 c).arrAt 3 cfg0.N = flat (V m c main_v15) (V m c main_v13) (V m c main_v14) :=
  (dats m 0 c).arrAt_eq_of_cover 3 (flat (V m c main_v15) (V m c main_v13) (V m c main_v14))
    (fun t _ => written_tile m c t) tiles_cover

end Cert.KernelIdeal.Blocks

end
-- ==== Proof.Entry.lean ====
/-
  What the region finds in the three arrays it stages.

  Before the region the program builds, from the base matrix `w`, the update's factors `a` and `b`, the adapted matrix
  `a·b + w` with every column rescaled by the ratio of `w`'s column norm to its own (`weight`). The region is launched
  on the transpose of that matrix (narrowed to a shorter float format, which changes nothing on the extended reals), on
  the bias as a one-row matrix, and on the rows with their two leading axes flattened.
-/
import proofs.«138356_j31456340476487_1_alg».proof.Proof.Gen.KernelIdeal.Frame
import Idealize.ShloMosaic.Lib.StableHlo.Run

noncomputable section

namespace Cert.KernelIdeal.Entry

open Cert.KernelIdeal Cert.KernelIdeal.Gen Idealize.ShloMosaic Idealize.ShloMosaic.TcCoe Idealize.SL.Sem
open Idealize.ShloMosaic.StableHlo

variable {F : FTy → Type} [FloatOps F]

/-- The adapted matrix with rescaled columns: `(a·b + w) · (‖w‖_col / ‖a·b + w‖_col)`, the norms taken down each column. -/
def weight (w : FVec F S2048x2048 .f32) (a : FVec F S2048x16 .f32) (b : FVec F S16x2048 .f32) : FVec F S2048x2048 .f32 :=
  mulf (addf (Host.dotGeneral dot_S2048x16_S16x2048_S2048x2048_1_0_0_1_n_n none a b) w)
    (broadcastInDim S2048x2048 ![0, 1] Facts₀.bcast_S1x2048_S2048x2048_0_1
      (broadcastInDim S1x2048 ![1] Facts₀.bcast_S2048_S1x2048_1
        (Host.divf
          (Host.sqrt (Host.reduceAdd (mulf w w) (constant S_ .f32 0x00000000#32) Facts₀.reducesTo_S2048x2048_S2048_d0 Facts₀.h_S_))
          (Host.sqrt (Host.reduceAdd
            (mulf (addf (Host.dotGeneral dot_S2048x16_S16x2048_S2048x2048_1_0_0_1_n_n none a b) w)
              (addf (Host.dotGeneral dot_S2048x16_S16x2048_S2048x2048_1_0_0_1_n_n none a b) w))
            (constant S_ .f32 0x00000000#32) Facts₀.reducesTo_S2048x2048_S2048_d0 Facts₀.h_S_)))))

variable (m : (ℓ : Loc nD τ sig) → Buf (Elt F) ℓ)

/-- The matrix the region stages whole: the transpose of `weight`. -/
theorem staged_matrix (c : Dev nD) :
    V m c main_v13 = truncf .bf16 (transpose S2048x2048 [1, 0]
      (weight (m ((c : Thread nD τ).loc main_arg1)) (m ((c : Thread nD τ).loc main_arg3)) (m ((c : Thread nD τ).loc main_arg4)))
      Facts₀.transposes_S2048x2048_S2048x2048_1_0) Facts₀.bitsLt_bf16_f32 := by
  show StableHlo.after hostOps0 (fun b => m (c, b)) (Proc.devRef .tc main_v13) = _
  after_results
  rfl

/-- The bias row the region stages whole. -/
theorem staged_bias (c : Dev nD) :
    V m c main_v14 = shapeCast S1x2048 (m ((c : Thread nD τ).loc main_arg2)) Facts₀.shapeCasts_S2048_S1x2048 := by
  show StableHlo.after hostOps0 (fun b => m (c, b)) (Proc.devRef .tc main_v14) = _
  after_results
  rfl

/-- The flattened rows the region stages tile by tile. -/
theorem staged_rows (c : Dev nD) :
    V m c main_v15 = shapeCast S16384x2048 (m ((c : Thread nD τ).loc main_arg0)) Facts₀.shapeCasts_S8x2048x2048_S16384x2048 := by
  show StableHlo.after hostOps0 (fun b => m (c, b)) (Proc.devRef .tc main_v15) = _
  after_results
  rfl

end Cert.KernelIdeal.Entry

end
-- ==== Proof.Layout.lean ====
/-
  The four re-layings the kernel's program does around its region, each read at coordinates.

  A transpose of a square matrix reads entry `(k, o)` at `(o, k)`. Casting the bias from `[2048]` to `[1, 2048]` keeps
  entry `o` at `(0, o)`. Flattening the two leading axes `[8, 2048]` of the rows into one axis of length `16384` sends
  `(b, s, k)` to `(2048·b + s, k)`, and the cast back sends `(r, o)` to `(b, s, o)` for the same `r = 2048·b + s`: a cast
  keeps each element's position in row-major order.
-/
import Idealize.ShloMosaic.Lib.Pipeline.Value
import Idealize.ShloMosaic.Lib.ValueIdx

noncomputable section

namespace Cert.Layout

open Idealize.ShloMosaic Idealize.ShloMosaic.ValueIdx

/-- The transposed matrix at `(k, o)` is the matrix at `(o, k)`. -/
theorem transpose_entry {α : Type} (W : (⟨2, ![2048, 2048]⟩ : Shape).Idx → α)
    (h : (⟨2, ![2048, 2048]⟩ : Shape).Transposes [1, 0] ⟨2, ![2048, 2048]⟩) (k o : Fin 2048) :
    transpose ⟨2, ![2048, 2048]⟩ [1, 0] W h (ix2 k o) = W (ix2 o k) :=
  transpose_apply [1, 0] W h (ix2 k o) (ix2 o k) (fun b => match b with
    | ⟨0, _⟩ => rfl
    | ⟨1, _⟩ => rfl)

/-- The bias as a one-row matrix, at `(0, o)`, is the bias at `o`. -/
theorem bias_row_entry {α : Type} (β : (⟨1, ![2048]⟩ : Shape).Idx → α)
    (h : (⟨1, ![2048]⟩ : Shape).ShapeCasts ⟨2, ![1, 2048]⟩) (o : Fin 2048) :
    shapeCast ⟨2, ![1, 2048]⟩ β h (ix2 0 o) = β (ix1 o) :=
  shapeCast_apply β h (ix2 0 o) (ix1 o) (by
    rw [Shape.rowMajor_val_one, Shape.rowMajor_val_two]
    show o.val = 0 * 2048 + o.val
    omega)

/-- The rows with their two leading axes flattened, at `(r, k)` with `r = 2048·b + s`, are the rows at `(b, s, k)`. -/
theorem rows_entry {α : Type} (x : (⟨3, ![8, 2048, 2048]⟩ : Shape).Idx → α)
    (h : (⟨3, ![8, 2048, 2048]⟩ : Shape).ShapeCasts ⟨2, ![16384, 2048]⟩) (b : Fin 8) (s k : Fin 2048) (r : Fin 16384)
    (hr : r.val = b.val * 2048 + s.val) :
    shapeCast ⟨2, ![16384, 2048]⟩ x h (ix2 r k) = x (ix3 b s k) :=
  shapeCast_apply x h (ix2 r k) (ix3 b s k) (by
    rw [Shape.rowMajor_val_three, Shape.rowMajor_val_two]
    show (b.val * 2048 + s.val) * 2048 + k.val = r.val * 2048 + k.val
    rw [hr])

/-- A flat result with its leading axis split back, at `(b, s, o)`, is the flat result at `(r, o)` with `r = 2048·b + s`. -/
theorem unrows_entry {α : Type} (Y : (⟨2, ![16384, 2048]⟩ : Shape).Idx → α)
    (h : (⟨2, ![16384, 2048]⟩ : Shape).ShapeCasts ⟨3, ![8, 2048, 2048]⟩) (b : Fin 8) (s o : Fin 2048) (r : Fin 16384)
    (hr : r.val = b.val * 2048 + s.val) :
    shapeCast ⟨3, ![8, 2048, 2048]⟩ Y h (ix3 b s o) = Y (ix2 r o) :=
  shapeCast_apply Y h (ix3 b s o) (ix2 r o) (by
    rw [Shape.rowMajor_val_two, Shape.rowMajor_val_three]
    show r.val * 2048 + o.val = (b.val * 2048 + s.val) * 2048 + o.val
    rw [hr])

end Cert.Layout

end
-- ==== Proof.Affine.lean ====
/-
  The function both programs compute.

  For a batch of rows `x[b, s, ·]`, a weight matrix `W[o, ·]` and a bias `β[o]`, the affine map along the last axis
  has, at `(b, s, o)`, the value `∑ i, x[b, s, i] · W[o, i] + β[o]`, read on the extended reals. The weight matrix is
  kept abstract here: both programs build it from the same three arrays by the same operations (a rank-16 update of a
  base matrix whose columns are rescaled to the base matrix's column norms), so nothing about it is ever needed
  beyond its being the same array on both sides. The sum is written with the factors in the order `x · W` in which both
  programs multiply, so no law of the extended reals is needed to join the two sides, only a renaming of indices.
-/
import Idealize.ShloMosaic.PureOps.Ideal
import Idealize.ShloMosaic.Lib.ValueIdx

noncomputable section

open scoped BigOperators

namespace Cert.Affine

open Idealize.ShloMosaic Idealize.ShloMosaic.ValueIdx

/-- `affine x W β` at `(b, s, o)` is `∑ i, x[b, s, i] · W[o, i] + β[o]`. -/
def affine (x : FVec Ideal ⟨3, ![8, 2048, 2048]⟩ .f32) (W : FVec Ideal ⟨2, ![2048, 2048]⟩ .f32)
    (β : FVec Ideal ⟨1, ![2048]⟩ .f32) : FVec Ideal ⟨3, ![8, 2048, 2048]⟩ .f32 :=
  fun i => (∑ k : Fin 2048, x (ix3 (i 0) (i 1) k) * W (ix2 (i 2) k)) + β (ix1 (i 2))

theorem affine_apply (x : FVec Ideal ⟨3, ![8, 2048, 2048]⟩ .f32) (W : FVec Ideal ⟨2, ![2048, 2048]⟩ .f32)
    (β : FVec Ideal ⟨1, ![2048]⟩ .f32) (b : Fin 8) (s : Fin 2048) (o : Fin 2048) :
    affine x W β (ix3 b s o) = (∑ k : Fin 2048, x (ix3 b s k) * W (ix2 o k)) + β (ix1 o) := rfl

end Cert.Affine

end
-- ==== Proof.KernelValue.lean ====
/-
  The kernel's result is the affine map.

  After the region the program splits the flat result's leading axis back into `[8, 2048]`. So the result at
  `(b, s, o)` is the region's output array at `(2048·b + s, o)`, which is
  `∑ k, X[2048·b + s, k] · M[k, o] + B[0, o]` of the three staged arrays; and those are the rows at `(b, s, k)`, the
  transposed weight matrix at `(k, o)`, that is the weight matrix at `(o, k)`, and the bias at `o`. That is the
  affine map of the rows, the weight matrix and the bias, with the factors in the same order.
-/
import proofs.«138356_j31456340476487_1_alg».proof.Proof.Gen.KernelIdeal.Frame
import proofs.«138356_j31456340476487_1_alg».proof.Proof.Blocks
import proofs.«138356_j31456340476487_1_alg».proof.Proof.Entry
import proofs.«138356_j31456340476487_1_alg».proof.Proof.Layout
import proofs.«138356_j31456340476487_1_alg».proof.Proof.Affine
import Idealize.ShloMosaic.Lib.StableHlo.Run
import Idealize.ShloMosaic.Lib.Pipeline.Value
import Idealize.ShloMosaic.Lib.ValueIdx
import Idealize.ShloMosaic.PureOps.Ideal

noncomputable section

open scoped BigOperators

namespace Cert.KernelIdeal.KernelValue

open Cert.KernelIdeal Cert.KernelIdeal.Gen Idealize.ShloMosaic Idealize.ShloMosaic.TcCoe Idealize.SL.Sem
open Idealize.ShloMosaic.StableHlo Idealize.ShloMosaic.ValueIdx
open Cert.KernelIdeal.Blocks Cert.KernelIdeal.Entry Cert.Affine

variable (m : (ℓ : Loc nD τ sig) → Buf (Elt Ideal) ℓ) (ρ : Dev nD → PrngReg)

/-- The line after the region: the result is the region's output array with its leading axis split back. -/
theorem tail_result (c : Dev nD) :
    Pipeline.afterTail₀ cfgs (dats m) 0 (V0 m) [hostOps1] c main_v17
      = shapeCast S8x2048x2048 ((dats m 0 c).arrAt 3 cfg0.N) Facts₀.shapeCasts_S16384x2048_S8x2048x2048 := by
  unfold Pipeline.afterTail₀
  show StableHlo.after hostOps1 _ (Proc.devRef .tc main_v17) = _
  after_results
  show shapeCast S8x2048x2048
      (Pipeline.withArrays spec0 c (V0 m c) (fun w => (dats m 0 c).arrAt w cfg0.N) (Proc.devRef .tc (Pipeline.arrRef spec0 3)))
      Facts₀.shapeCasts_S16384x2048_S8x2048x2048 = _
  rw [Pipeline.withArrays_arr spec0 launch0.win.arr_inj c _ _ 3]

/-- The flat result with its leading axis split back is the affine map of the rows, the weight matrix and the bias. -/
theorem split_flat (c : Dev nD) :
    shapeCast S8x2048x2048 (flat (V m c main_v15) (V m c main_v13) (V m c main_v14)) Facts₀.shapeCasts_S16384x2048_S8x2048x2048
      = affine (m ((c : Thread nD τ).loc main_arg0))
          (weight (m ((c : Thread nD τ).loc main_arg1)) (m ((c : Thread nD τ).loc main_arg3)) (m ((c : Thread nD τ).loc main_arg4)))
          (m ((c : Thread nD τ).loc main_arg2)) := by
  funext i
  obtain ⟨b, s, o, rfl⟩ : ∃ (b : Fin 8) (s o : Fin 2048), i = ix3 b s o := ⟨i 0, i 1, i 2, eq_ix3 i⟩
  have hb : b.val < 8 := b.isLt
  have hs : s.val < 2048 := s.isLt
  have hr : b.val * 2048 + s.val < 16384 := by omega
  rw [Cert.Layout.unrows_entry _ _ b s o ⟨b.val * 2048 + s.val, hr⟩ rfl, flat_apply, affine_apply]
  congr 1
  · refine Finset.sum_congr rfl fun k _ => ?_
    rw [staged_rows, staged_matrix, Cert.Layout.rows_entry _ _ b s k ⟨b.val * 2048 + s.val, hr⟩ rfl]
    congr 1
    exact (truncf_apply (φ := .f32) (ψ := .bf16) _ Facts₀.bitsLt_bf16_f32 (ix2 k o)).trans
      (Cert.Layout.transpose_entry _ Facts₀.transposes_S2048x2048_S2048x2048_1_0 k o)
  · rw [staged_bias]
    exact Cert.Layout.bias_row_entry _ _ o

/-- The kernel's run, read: the result at the affine map, the arguments unchanged. -/
theorem run : θ_run defs (onTc (τ := τ) (main (F := Ideal))) ⟨m, fun _ => 0, ρ⟩ fun r => ∀ c : Dev nD,
      r.2.mem ((c : Thread nD τ).loc main_v17)
        = affine (m ((c : Thread nD τ).loc main_arg0))
            (weight (m ((c : Thread nD τ).loc main_arg1)) (m ((c : Thread nD τ).loc main_arg3)) (m ((c : Thread nD τ).loc main_arg4)))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
    ⟨((h c).2 main_v17 (Pipeline.mem_restRefs_of main_v17 (by decide) (by decide))).trans
        ((tail_result m c).trans (by rw [output_array m c]; exact split_flat m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KernelValue

end
-- ==== Proof.RefSide.lean ====
/-
  The reference's result is the affine map.

  The reference contracts the last axis of `x[b, s, ·]` with the last axis of its weight matrix `W[o, ·]` and adds the
  bias broadcast over the two leading axes. Read at `(b, s, o)` this is `∑ i, x[b, s, i] · W[o, i] + β[o]`: the two
  operands of the product are read at `(b, s, i)` and `(o, i)`, and the bias, broadcast through a `1 × 1 × 2048` array,
  at `o`. The weight matrix is left as the reference's own stage for it.
-/
import proofs.«138356_j31456340476487_1_alg».proof.Proof.Gen.ReferenceIdeal.Read
import proofs.«138356_j31456340476487_1_alg».proof.Proof.Affine

noncomputable section

open scoped BigOperators

namespace Cert.ReferenceIdeal.RefValue

open Cert.ReferenceIdeal Cert.ReferenceIdeal.Read Idealize.ShloMosaic Idealize.ShloMosaic.ValueIdx Cert.Affine

/-- The reference's last stage is the affine map of the rows, of its weight stage, and of the bias. -/
theorem result_affine (x0 : FVec Ideal S8x2048x2048 .f32) (x1 : FVec Ideal S2048x2048 .f32) (x2 : FVec Ideal S2048 .f32)
    (x3 : FVec Ideal S2048x16 .f32) (x4 : FVec Ideal S16x2048 .f32) :
    val_main_v15 (F := Ideal) x0 x1 x2 x3 x4 = affine x0 (val_main_v11 (F := Ideal) x1 x3 x4) x2 := by
  funext i
  rw [val_main_v15_apply, val_main_v12_apply, val_main_v14_apply, val_main_v13_apply]
  have el : ∀ k : Fin 2048, lidx_main_v12 i k = ix3 (i 0) (i 1) k := fun k => funext fun a => by
    match a with
    | ⟨0, _⟩ => rfl
    | ⟨1, _⟩ => rfl
    | ⟨2, _⟩ => rfl
  have er : ∀ k : Fin 2048, ridx_main_v12 i k = ix2 (i 2) k := fun k => funext fun a => by
    match a with
    | ⟨0, _⟩ => rfl
    | ⟨1, _⟩ => rfl
  have eb : idx_main_v13 (idx_main_v14 i) = ix1 (i 2) := funext fun a => by
    match a with
    | ⟨0, _⟩ => rfl
  simp only [el, er, eb]
  rfl

end Cert.ReferenceIdeal.RefValue

end
-- ==== Proof.lean ====
/-
  A linear layer whose weight matrix is rebuilt from a low-rank update, against its plain reference.

  Both programs first build the same weight matrix `W` from the base matrix `w` and the factors `a`, `b`: the adapted
  matrix `a·b + w`, each column rescaled by the ratio of `w`'s column norm to its own; they build it by the same
  operations in the same order, so the two are one term and nothing about `W` is used. The reference then contracts the
  rows `x[b, s, ·]` with `W[o, ·]` and adds the bias. The kernel transposes `W`, flattens the rows' two leading axes,
  multiplies 32 tiles of 512 flat rows by the transposed matrix into a zero accumulator, adds the bias row, and splits
  the leading axis back. On the extended reals, where a change of float format is the identity and a matrix product
  into a zero accumulator is the plain sum of products, both results are
  `∑ i, x[b, s, i] · W[o, i] + β[o]` at every `(b, s, o)`, with the factors in the same order: the two sides differ
  only in how the indices are named, so the precondition is never opened.

  The three frames are the programs' generated runs. The idealization rewrote nothing, so `preserves` holds trivially.
-/
import proofs.«138356_j31456340476487_1_alg».proof.Defs
import proofs.«138356_j31456340476487_1_alg».proof.Proof.Gen.Kernel
import proofs.«138356_j31456340476487_1_alg».proof.Proof.Gen.Kernel.Skeleton
import proofs.«138356_j31456340476487_1_alg».proof.Proof.Gen.Kernel.Launch
import proofs.«138356_j31456340476487_1_alg».proof.Proof.Gen.Kernel.Points
import proofs.«138356_j31456340476487_1_alg».proof.Proof.Gen.Kernel.Frame
import proofs.«138356_j31456340476487_1_alg».proof.Proof.Gen.KernelIdeal
import proofs.«138356_j31456340476487_1_alg».proof.Proof.Gen.KernelIdeal.Skeleton
import proofs.«138356_j31456340476487_1_alg».proof.Proof.Gen.KernelIdeal.Launch
import proofs.«138356_j31456340476487_1_alg».proof.Proof.Gen.KernelIdeal.Points
import proofs.«138356_j31456340476487_1_alg».proof.Proof.Gen.KernelIdeal.Frame
import proofs.«138356_j31456340476487_1_alg».proof.Proof.Gen.ReferenceIdeal
import proofs.«138356_j31456340476487_1_alg».proof.Proof.Gen.Pre_finite_inputs
import proofs.«138356_j31456340476487_1_alg».proof.Proof.Gen.ReferenceIdeal.Run
import proofs.«138356_j31456340476487_1_alg».proof.Proof.Gen.ReferenceIdeal.Read
import Idealize.ShloMosaic.Adequacy
import Idealize.ShloMosaic.Init
import proofs.«138356_j31456340476487_1_alg».proof.Proof.KernelValue
import proofs.«138356_j31456340476487_1_alg».proof.Proof.RefSide

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The two programs' weight matrices are one term of `w`, `a` and `b`. -/
theorem weight_same (w : FVec Ideal Cert.KernelIdeal.S2048x2048 .f32) (a : FVec Ideal Cert.KernelIdeal.S2048x16 .f32)
    (b : FVec Ideal Cert.KernelIdeal.S16x2048 .f32) :
    Cert.ReferenceIdeal.Read.val_main_v11 (F := Ideal) w a b = Cert.KernelIdeal.Entry.weight (F := Ideal) w a b := rfl

/-- Both runs end with the result at the affine map of the rows, the weight matrix and the bias. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono
    (fun _ h c => ⟨(h c).1.trans ((Cert.ReferenceIdeal.Read.val_main_v15_eq _ _ _ _ _).trans ?_), (h c).2⟩)
    (Cert.ReferenceIdeal.Value.run (F := Ideal) m' ρ')
  rw [Cert.ReferenceIdeal.RefValue.result_affine, weight_same, (hagree c).1, (hagree c).2.1, (hagree c).2.2.1,
    (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
